-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12800x66x50 : Shape := ⟨3, ![12800, 66, 50]⟩
abbrev S_ : Shape := ⟨0, ![]⟩

class Facts : Prop where
  bcast_S_S12800x66x50 : S_.BroadcastsInDim S12800x66x50 (![] : Fin 0 → Fin S12800x66x50.rank)
  reducesTo_S12800x66x50_S_d0_1_2 : S12800x66x50.ReducesTo [0, 1, 2] S_
  h_S_ : 0 < S_.numel

variable [Facts]

def fn {F : FTy → Type} [FloatOps F] (main_arg0 : FVec F S12800x66x50 .f32) : IVec S_ 1 :=
  let main_v0 : FVec F S12800x66x50 .f32 := Host.absf main_arg0
  let main_cst : FVec F S_ .f32 := constant S_ .f32 0x7F800000#32
  let main_v1 : FVec F S12800x66x50 .f32 := broadcastInDim S12800x66x50 ![] bcast_S_S12800x66x50 main_cst
  let main_v2 : IVec S12800x66x50 1 := cmpf .olt main_v0 main_v1
  let main_c : IVec S_ 1 := constantI S_ 1 1#1
  let main_v3 : IVec S_ 1 := (fun x v => Host.reduce IntOp.andi x v reducesTo_S12800x66x50_S_d0_1_2 h_S_) main_v2 main_c
  main_v3
-- ==== Kernel.lean ====
abbrev S12800x66x50 : Shape := ⟨3, ![12800, 66, 50]⟩
abbrev S22x22 : Shape := ⟨2, ![22, 22]⟩
abbrev S8x66x50 : Shape := ⟨3, ![8, 66, 50]⟩
abbrev S1280x66x50 : Shape := ⟨3, ![1280, 66, 50]⟩
abbrev S1x22x50 : Shape := ⟨3, ![1, 22, 50]⟩
abbrev S22x50 : Shape := ⟨2, ![22, 50]⟩

abbrev nBuf : Space → Nat
  | .hbm => 3
  | .vmem => 4
  | .smem => 0
  | _ => 0

abbrev bufTy : (tb : Table) → Fin (tcTables nBuf tb) → BufTy
  | .hbm, ⟨0, _⟩ => ⟨S12800x66x50, .f32⟩
  | .hbm, ⟨1, _⟩ => ⟨S22x22, .f32⟩
  | .hbm, ⟨2, _⟩ => ⟨S12800x66x50, .f32⟩
  | .local _ .vmem, ⟨0, _⟩ => ⟨S22x22, .f32⟩
  | .local _ .vmem, ⟨1, _⟩ => ⟨S8x66x50, .f32⟩
  | .local _ .vmem, ⟨2, _⟩ => ⟨S1280x66x50, .f32⟩
  | .local _ .vmem, ⟨3, _⟩ => ⟨S1280x66x50, .f32⟩
  | _, _ => ⟨S12800x66x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S22x22 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x66x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1280x66x50 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1280x66x50_S1280x66x50_0_0_0 : ∀ a, (![0, 0, 0] : Fin 3 → Nat) a + S1280x66x50.size a ≤ S1280x66x50.size a
  h_S1280x66x50 : 0 < S1280x66x50.numel
  inb_S8x66x50_S1x22x50_0_0_0 : ∀ a, (![0, 0, 0] : Fin 3 → Nat) a + S1x22x50.size a ≤ S8x66x50.size a
  h_S1x22x50 : 0 < S1x22x50.numel
  shapeCasts_S1x22x50_S22x50 : S1x22x50.ShapeCasts S22x50
  inb_S22x22_S22x22_0_0 : ∀ a, (![0, 0] : Fin 2 → Nat) a + S22x22.size a ≤ S22x22.size a
  h_S22x22 : 0 < S22x22.numel
  inb_S1280x66x50_S1x22x50_0_0_0 : ∀ a, (![0, 0, 0] : Fin 3 → Nat) a + S1x22x50.size a ≤ S1280x66x50.size a
  shapeCasts_S22x50_S1x22x50 : S22x50.ShapeCasts S1x22x50
  dot_S22x22_S22x50_S22x50_1_0_0_1_n_n_wf : DotDims.WF S22x22 S22x50 S22x50 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S22x22.size a ≤ S22x22.size a
  hwx0_0 : ∀ i : grid0.Coords, EltTy.bits .f32 = 32 ∨ (Rect.block (s := S22x22) S22x22.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S8x66x50.size a ≤ S12800x66x50.size a
  hwx0_1 : ∀ i : grid0.Coords, EltTy.bits .f32 = 32 ∨ (Rect.block (s := S12800x66x50) S8x66x50.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1280x66x50.size a ≤ S12800x66x50.size a
  hwx0_2 : ∀ i : grid0.Coords, EltTy.bits .f32 = 32 ∨ (Rect.block (s := S12800x66x50) S1280x66x50.size (cc0_transform_2 i) (hinb0_2 i)).WholeWords (EltTy.packing .f32)

variable [Facts₀]

def dot_S22x22_S22x50_S22x50_1_0_0_1_n_n : DotDims S22x22 S22x50 S22x50 where
  lhsContracting := [1]
  rhsContracting := [0]
  lhsNonContracting := [0]
  rhsNonContracting := [1]
  lhsBatch := []
  rhsBatch := []
  wf := dot_S22x22_S22x50_S22x50_1_0_0_1_n_n_wf

abbrev win0_0 : Pipeline.Window sig grid0 :=
  Pipeline.Window.ofSpec (Memref.whole main_cst) S22x22.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x66x50.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1280x66x50.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S12800x66x50 : Shape := ⟨3, ![12800, 66, 50]⟩
abbrev S43 : Shape := ⟨1, ![43]⟩
abbrev S844800x50 : Shape := ⟨2, ![844800, 50]⟩
abbrev S_ : Shape := ⟨0, ![]⟩
abbrev S43x1 : Shape := ⟨2, ![43, 1]⟩
abbrev S43x50 : Shape := ⟨2, ![43, 50]⟩

abbrev nBuf : Space → Nat
  | .hbm => 25
  | .vmem => 0
  | .smem => 0
  | _ => 0

abbrev bufTy : (tb : Table) → Fin (tcTables nBuf tb) → BufTy
  | .hbm, ⟨0, _⟩ => ⟨S12800x66x50, .f32⟩
  | .hbm, ⟨1, _⟩ => ⟨S43, .i32⟩
  | .hbm, ⟨2, _⟩ => ⟨S43, .i32⟩
  | .hbm, ⟨3, _⟩ => ⟨S844800x50, .f32⟩
  | .hbm, ⟨4, _⟩ => ⟨S_, .i32⟩
  | .hbm, ⟨5, _⟩ => ⟨S43, .i32⟩
  | .hbm, ⟨6, _⟩ => ⟨S43, .i1⟩
  | .hbm, ⟨7, _⟩ => ⟨S_, .i32⟩
  | .hbm, ⟨8, _⟩ => ⟨S43, .i32⟩
  | .hbm, ⟨9, _⟩ => ⟨S43, .i32⟩
  | .hbm, ⟨10, _⟩ => ⟨S43, .i32⟩
  | .hbm, ⟨11, _⟩ => ⟨S43x1, .i32⟩
  | .hbm, ⟨12, _⟩ => ⟨S43x50, .f32⟩
  | .hbm, ⟨13, _⟩ => ⟨S_, .f32⟩
  | .hbm, ⟨14, _⟩ => ⟨S844800x50, .f32⟩
  | .hbm, ⟨15, _⟩ => ⟨S_, .i32⟩
  | .hbm, ⟨16, _⟩ => ⟨S43, .i32⟩
  | .hbm, ⟨17, _⟩ => ⟨S43, .i1⟩
  | .hbm, ⟨18, _⟩ => ⟨S_, .i32⟩
  | .hbm, ⟨19, _⟩ => ⟨S43, .i32⟩
  | .hbm, ⟨20, _⟩ => ⟨S43, .i32⟩
  | .hbm, ⟨21, _⟩ => ⟨S43, .i32⟩
  | .hbm, ⟨22, _⟩ => ⟨S43x1, .i32⟩
  | .hbm, ⟨23, _⟩ => ⟨S844800x50, .f32⟩
  | .hbm, ⟨24, _⟩ => ⟨S12800x66x50, .f32⟩
  | _, _ => ⟨S12800x66x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_c_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_c_3 : Ref sig .tc := ⟨.hbm, 15, rfl⟩
abbrev main_v9 : Ref sig .tc := ⟨.hbm, 16, rfl⟩
abbrev main_v10 : Ref sig .tc := ⟨.hbm, 17, rfl⟩
abbrev main_c_4 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  shapeCasts_S12800x66x50_S844800x50 : S12800x66x50.ShapeCasts S844800x50
  bcast_S_S43 : S_.BroadcastsInDim S43 (![] : Fin 0 → Fin S43.rank)
  bcast_S43_S43x1_0 : S43.BroadcastsInDim S43x1 (![0] : Fin 1 → Fin S43x1.rank)
  bcast_S_S844800x50 : S_.BroadcastsInDim S844800x50 (![] : Fin 0 → Fin S844800x50.rank)
  shapeCasts_S844800x50_S12800x66x50 : S844800x50.ShapeCasts S12800x66x50
  gather_S844800x50_S43x1_S43x50_1_0_n_n_0_1_150_wf : GatherDims.WF S844800x50 S43x1 S43x50 [1] [0] [] [0] [] 1 ![1, 50]
  scatter_S844800x50_S43x1_S43x50_1_0_0_1_wf : ScatterDims.WF S844800x50 S43x1 S43x50 [1] [0] [0] 1

variable [Facts₀]

def gather_S844800x50_S43x1_S43x50_1_0_n_n_0_1_150 : GatherDims S844800x50 S43x1 S43x50 where
  offsetDims := [1]
  collapsedSliceDims := [0]
  operandBatchingDims := []
  startIndicesBatchingDims := []
  startIndexMap := [0]
  indexVectorDim := 1
  sliceSizes := ![1, 50]
  wf := gather_S844800x50_S43x1_S43x50_1_0_n_n_0_1_150_wf
def scatter_S844800x50_S43x1_S43x50_1_0_0_1 : ScatterDims S844800x50 S43x1 S43x50 where
  updateWindowDims := [1]
  insertedWindowDims := [0]
  scatterDimsToOperandDims := [0]
  indexVectorDim := 1
  wf := scatter_S844800x50_S43x1_S43x50_1_0_0_1_wf

class Facts : Prop extends Facts₀ where

variable [Facts]
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.Spec.lean ====
/-
  The skeleton's adjacency and the result both programs compute, as one function of the argument array.

  The skeleton has 22 joints and 43 directed edges: every joint's self link, then the 21 bone links. Edge `e` sends the
  features of joint `col e` to joint `row e`. Seen as a flat list of 12800 · 66 rows of 50 features, the argument's
  rows 0 … 21 are the joints (they are rows (0, 0) … (0, 21) of the [12800, 66, 50] array); the result's row `r` is
  the sum, over the edges whose `row` is `r`, of the argument's row `col e`, and every row from 22 on is zero.

  Written per target joint instead: joint `v` receives the sum over the source joints `k` adjacent to it. The two
  sums agree because no edge is listed twice, so the edges into `v` are in bijection with the joints adjacent to `v`.
  Only commutativity and associativity of the sum are used, and `0 · x = 0`, `1 · x = x`: no finiteness is needed.
-/
import Idealize.ShloMosaic.PureOps.Ideal
import Idealize.ShloMosaic.Lib.ValueIdx

open scoped BigOperators

noncomputable section

namespace Cert.Skeleton

open Idealize.ShloMosaic Idealize.ShloMosaic.ValueIdx

/-- The target joint of each edge: the self links, then the bone links. -/
def row : Fin 43 → Fin 22 :=
  ![0, 1, 2, 3, 4, 5, 6, 7, 8, 9, 10, 11, 12, 13, 14, 15, 16, 17, 18, 19, 20, 21,
    0, 1, 2, 4, 5, 6, 0, 4, 8, 9, 10, 9, 12, 13, 14, 14, 9, 17, 18, 19, 19]

/-- The source joint of each edge. -/
def col : Fin 43 → Fin 22 :=
  ![0, 1, 2, 3, 4, 5, 6, 7, 8, 9, 10, 11, 12, 13, 14, 15, 16, 17, 18, 19, 20, 21,
    1, 2, 3, 5, 6, 7, 8, 8, 9, 10, 11, 12, 13, 14, 15, 16, 17, 18, 19, 20, 21]

/-- Joint `k` feeds joint `v`: some edge goes from `k` to `v`. -/
def adj (v k : Fin 22) : Prop := ∃ e : Fin 43, row e = v ∧ col e = k

instance (v k : Fin 22) : Decidable (adj v k) := by unfold adj; infer_instance

/-- No edge is listed twice. -/
theorem edge_unique : ∀ e e' : Fin 43, row e = row e' → col e = col e' → e = e' := by decide

/-- Summing over the edges into `v` is summing over the joints adjacent to `v`: each such joint is the source of
    exactly one edge into `v`. -/
theorem edge_sum {M : Type*} [AddCommMonoid M] (f : Fin 22 → M) (v : Fin 22) :
    ∑ e : Fin 43, (if row e = v then f (col e) else 0) = ∑ k : Fin 22, (if adj v k then f k else 0) := by
  have h1 : ∀ e : Fin 43, (if row e = v then f (col e) else 0)
      = ∑ k : Fin 22, (if row e = v ∧ col e = k then f k else 0) := by
    intro e
    by_cases hr : row e = v
    · rw [if_pos hr]
      have : ∀ k : Fin 22, (if row e = v ∧ col e = k then f k else 0) = (if col e = k then f k else 0) := by
        intro k
        by_cases hk : col e = k
        · rw [if_pos ⟨hr, hk⟩, if_pos hk]
        · rw [if_neg (fun h => hk h.2), if_neg hk]
      rw [Finset.sum_congr rfl (fun k _ => this k), Finset.sum_ite_eq Finset.univ (col e) f, if_pos (Finset.mem_univ _)]
    · rw [if_neg hr]
      exact (Finset.sum_eq_zero fun k _ => if_neg (fun h => hr h.1)).symm
  rw [Finset.sum_congr rfl (fun e _ => h1 e), Finset.sum_comm]
  refine Finset.sum_congr rfl fun k _ => ?_
  by_cases ha : adj v k
  · obtain ⟨e0, hr0, hc0⟩ := ha
    rw [if_pos ⟨e0, hr0, hc0⟩, Finset.sum_eq_single e0]
    · rw [if_pos ⟨hr0, hc0⟩]
    · intro e _ hne
      rw [if_neg]
      rintro ⟨hr, hc⟩
      exact hne (edge_unique e e0 (hr.trans hr0.symm) (hc.trans hc0.symm))
    · intro h
      exact absurd (Finset.mem_univ _) h
  · rw [if_neg ha]
    refine Finset.sum_eq_zero fun e _ => ?_
    rw [if_neg]
    rintro ⟨hr, hc⟩
    exact ha ⟨e, hr, hc⟩

/-- The argument and result shape: 12800 batch entries of 66 rows of 50 features. -/
abbrev Sx : Shape := ⟨3, ![12800, 66, 50]⟩

/-- A joint as a row of a batch entry. -/
def joint (k : Fin 22) : Fin 66 := ⟨k.val, by have := k.isLt; omega⟩

/-- The first batch entry. -/
def b0 : Fin 12800 := ⟨0, by decide⟩

/-- THE RESULT at batch entry `b`, row `v`, feature `t`: the sum over the edges whose target, as a flat row, is
    row `66 b + v`, of the source joint's feature `t` in batch entry 0. -/
def Gc (x : Sx.Idx → EReal) (b : Fin 12800) (v : Fin 66) (t : Fin 50) : EReal :=
  ∑ e : Fin 43, if (row e).val = 66 * b.val + v.val then x (ix3 b0 (joint (col e)) t) else 0

/-- The result array. -/
def G (x : Sx.Idx → EReal) : Sx.Idx → EReal := fun i => Gc x (i 0) (i 1) (i 2)

/-- A flat row from 22 on is the target of no edge: the result there is zero. -/
theorem Gc_of_not_joint (x : Sx.Idx → EReal) (b : Fin 12800) (v : Fin 66) (t : Fin 50) (h : 22 ≤ 66 * b.val + v.val) :
    Gc x b v t = 0 := by
  unfold Gc
  refine Finset.sum_eq_zero fun e _ => ?_
  rw [if_neg]
  have := (row e).isLt
  omega

/-- At a joint of batch entry 0 the result is the product of the adjacency table with the joints' features, for any
    table `a` holding one on the adjacent pairs and zero elsewhere. -/
theorem sum_adj_eq_Gc (x : Sx.Idx → EReal) (a : Fin 22 → Fin 22 → EReal)
    (ha : ∀ v k, a v k = if adj v k then 1 else 0) (v : Fin 22) (t : Fin 50) :
    ∑ k : Fin 22, a v k * x (ix3 b0 (joint k) t) = Gc x b0 (joint v) t := by
  unfold Gc
  have e1 : ∀ k : Fin 22, a v k * x (ix3 b0 (joint k) t) = if adj v k then x (ix3 b0 (joint k) t) else 0 := by
    intro k
    rw [ha]
    by_cases h : adj v k
    · rw [if_pos h, if_pos h, one_mul]
    · rw [if_neg h, if_neg h, zero_mul]
  rw [Finset.sum_congr rfl (fun k _ => e1 k), ← edge_sum (fun k => x (ix3 b0 (joint k) t)) v]
  refine Finset.sum_congr rfl fun e _ => ?_
  have hiff : row e = v ↔ (row e).val = 66 * b0.val + (joint v).val := by
    show row e = v ↔ (row e).val = 66 * 0 + v.val
    rw [Fin.ext_iff]
    omega
  by_cases h : row e = v
  · rw [if_pos h, if_pos (hiff.1 h)]
  · rw [if_neg h, if_neg (fun h' => h (hiff.2 h'))]

/-- A row of a batch entry read as a joint (rows below 22 are the joints themselves). -/
def toJoint (v : Fin 66) : Fin 22 := ⟨v.val % 22, Nat.mod_lt _ (by decide)⟩

theorem joint_toJoint (v : Fin 66) (h : v.val < 22) : joint (toJoint v) = v :=
  Fin.ext (Nat.mod_eq_of_lt h)

/-- THE RESULT in the kernel's form, for a 22 × 22 table `a`: on the joints of batch entry 0 the table's row times the
    joints' features, zero on every other row. -/
def Kc (a : (⟨2, ![22, 22]⟩ : Shape).Idx → EReal) (x : Sx.Idx → EReal) (b : Fin 12800) (v : Fin 66) (t : Fin 50) : EReal :=
  if b.val = 0 ∧ v.val < 22 then ∑ k : Fin 22, a (ix2 (toJoint v) k) * x (ix3 b0 (joint k) t) else 0

/-- As an array. -/
def K (a : (⟨2, ![22, 22]⟩ : Shape).Idx → EReal) (x : Sx.Idx → EReal) : Sx.Idx → EReal := fun i => Kc a x (i 0) (i 1) (i 2)

/-- The kernel's form is the specification when the table holds one on the adjacent pairs and zero elsewhere. -/
theorem Kc_eq_Gc (a : (⟨2, ![22, 22]⟩ : Shape).Idx → EReal) (ha : ∀ v k : Fin 22, a (ix2 v k) = if adj v k then 1 else 0)
    (x : Sx.Idx → EReal) (b : Fin 12800) (v : Fin 66) (t : Fin 50) : Kc a x b v t = Gc x b v t := by
  unfold Kc
  by_cases h : b.val = 0 ∧ v.val < 22
  · rw [if_pos h]
    obtain ⟨hb, hv⟩ := h
    obtain rfl : b = b0 := Fin.ext hb
    have hj : Gc x b0 v t = Gc x b0 (joint (toJoint v)) t := by rw [joint_toJoint v hv]
    rw [hj]
    exact sum_adj_eq_Gc x (fun v k => a (ix2 v k)) ha (toJoint v) t
  · rw [if_neg h]
    refine (Gc_of_not_joint x b v t ?_).symm
    by_contra hlt
    exact h ⟨by omega, by omega⟩

theorem K_eq_G (a : (⟨2, ![22, 22]⟩ : Shape).Idx → EReal) (ha : ∀ v k : Fin 22, a (ix2 v k) = if adj v k then 1 else 0)
    (x : Sx.Idx → EReal) : K a x = G x :=
  funext fun i => Kc_eq_Gc a ha x (i 0) (i 1) (i 2)

end Cert.Skeleton

end
-- ==== Proof.KernelBlock.lean ====
/-
  What one grid point leaves in its block of the result, read at an index.

  Every point first stores zeros over its whole block of 1280 batch entries. The first point then stores, over rows
  (0, 0 … 21, ·) of the block, the product of the 22 × 22 table with rows (0, 0 … 21, ·) of the argument's first block.
  So away from the first point the block is zero; at the first point element (p, q, r) is the sum over k < 22 of
  table[q, k] · argument[0, k, r] when p = 0 and q < 22, and zero otherwise.
-/
import proofs.«177231_j80307298501385_1_alg».proof.Proof.Gen.KernelIdeal.Frame
import proofs.«177231_j80307298501385_1_alg».proof.Proof.LibPlainDot
import proofs.«177231_j80307298501385_1_alg».proof.Proof.Spec
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.Block

open Cert.KernelIdeal Cert.KernelIdeal.Gen Idealize.ShloMosaic Idealize.ShloMosaic.TcCoe Idealize.ShloMosaic.Tactic
open Idealize.SL.Sem Idealize.ShloMosaic.ValueIdx Cert.Skeleton

theorem hz3 : (![0, 0, 0] : Fin 3 → Nat) = fun _ => 0 := funext fun a => by fin_cases a <;> rfl
theorem hz2 : (![0, 0] : Fin 2 → Nat) = fun _ => 0 := funext fun a => by fin_cases a <;> rfl

section AnyInstance
variable {F : FTy → Type} [FloatOps F]

/-- Away from the first grid point the body's one store leaves the zero block. -/
theorem restBlock (c : Dev nD) (i : grid0.Coords) (arg1 : Memref sig .tc .vmem S22x22 .f32) (harg1 : arg1.IsWhole) (arg2 : Memref sig .tc .vmem S8x66x50 .f32) (harg2 : arg2.IsWhole) (arg3 : Memref sig .tc .vmem S1280x66x50 .f32) (harg3 : arg3.IsWhole) (hc0 : ¬cond0_0 i)
    (x0 : Vec F S22x22 .f32) (x1 : Vec F S8x66x50 .f32) :
    out0_B_2 c i arg1 harg1 arg2 harg2 arg3 harg3 hc0 x0 x1 = k0_pay1 := by
  unfold out0_B_2
  rw [View.read_writes_eq_canon _ _ _ (cover0_B_2 c i arg1 harg1 arg2 harg2 arg3 harg3 hc0 x0 x1)]
  unfold kernelRun0_B
  dsimp only
  sl_unfold_words
  rw [View.canon_unit_zero hz3]

/-- At the first grid point the body's two stores leave the zero block overlaid, on its rows (0, 0 … 21, ·), by the
    product payload of the table block and of those rows of the argument's block. -/
theorem firstBlock (c : Dev nD) (i : grid0.Coords) (arg1 : Memref sig .tc .vmem S22x22 .f32) (harg1 : arg1.IsWhole) (arg2 : Memref sig .tc .vmem S8x66x50 .f32) (harg2 : arg2.IsWhole) (arg3 : Memref sig .tc .vmem S1280x66x50 .f32) (harg3 : arg3.IsWhole) (hc0 : cond0_0 i)
    (x0 : Vec F S22x22 .f32) (x1 : Vec F S8x66x50 .f32) :
    out0_A_2 c i arg1 harg1 arg2 harg2 arg3 harg3 hc0 x0 x1
      = View.canon ([⟨Rect.unit (s := S1280x66x50) ![0, 0, 0] S1x22x50.size inb_S1280x66x50_S1x22x50_0_0_0,
            k0_pay2 (View.ld x1 (Rect.unit (s := S8x66x50) ![0, 0, 0] S1x22x50.size inb_S8x66x50_S1x22x50_0_0_0)) x0⟩,
          ⟨Rect.unit (s := S1280x66x50) ![0, 0, 0] S1280x66x50.size inb_S1280x66x50_S1280x66x50_0_0_0, k0_pay1⟩] :
        List (View.Piece (Elt F) S1280x66x50 .f32)) := by
  unfold out0_A_2
  rw [View.read_writes_eq_canon _ _ _ (cover0_A_2 c i arg1 harg1 arg2 harg2 arg3 harg3 hc0 x0 x1)]
  unfold kernelRun0_A
  dsimp only
  sl_unfold_words
  simp only [View.readAt_eq_ld, harg1.read_unread, harg2.read_unread, View.ld_unit_zero (S := S22x22) hz2]

end AnyInstance

/-! ## At the exact instance, index by index -/

/-- The product payload at row `q`, feature `r`: the sum over k of table[q, k] · rows[0, k, r]. The two shape casts
    only drop and restore the unit leading axis; the matrix unit into a zero accumulator is the plain sum. -/
theorem pay2_apply (v5 : S1x22x50.Idx → EReal) (v7 : S22x22.Idx → EReal) (q : Fin 22) (r : Fin 50) :
    k0_pay2 (F := Ideal) v5 v7 (ix3 (0 : Fin 1) q r) = ∑ k : Fin 22, v7 (ix2 q k) * v5 (ix3 (0 : Fin 1) k r) := by
  unfold k0_pay2
  refine (shapeCast_apply _ _ (ix3 (0 : Fin 1) q r) (ix2 q r) ?_).trans ?_
  · rw [Shape.rowMajor_val_two, Shape.rowMajor_val_three]
    show q.val * 50 + r.val = ((0 : ℕ) * 22 + q.val) * 50 + r.val
    omega
  · refine (plain_matmul_zero_apply (M := 22) (K := 22) (N := 50) (some .fp32) v7 _ (ix2 q r)).trans ?_
    refine Finset.sum_congr rfl fun k _ => ?_
    refine congrArg (v7 (ix2 q k) * ·) ?_
    refine shapeCast_apply _ _ (ix2 k r) (ix3 (0 : Fin 1) k r) ?_
    rw [Shape.rowMajor_val_two, Shape.rowMajor_val_three]
    show ((0 : ℕ) * 22 + k.val) * 50 + r.val = k.val * 50 + r.val
    omega

/-- The first point's block as its two stores leave it, for a table block `a` and an argument block `x1`. -/
abbrev firstCanon (a : S22x22.Idx → EReal) (x1 : S8x66x50.Idx → EReal) : S1280x66x50.Idx → EReal :=
  View.canon ([⟨Rect.unit (s := S1280x66x50) ![0, 0, 0] S1x22x50.size inb_S1280x66x50_S1x22x50_0_0_0,
        k0_pay2 (F := Ideal) (View.ld x1 (Rect.unit (s := S8x66x50) ![0, 0, 0] S1x22x50.size inb_S8x66x50_S1x22x50_0_0_0)) a⟩,
      ⟨Rect.unit (s := S1280x66x50) ![0, 0, 0] S1280x66x50.size inb_S1280x66x50_S1280x66x50_0_0_0, k0_pay1 (F := Ideal)⟩] :
    List (View.Piece (Elt Ideal) S1280x66x50 .f32))

/-- THE FIRST POINT'S BLOCK at (p, q, r): inside the later store's rows (p = 0, q < 22) the product payload, which
    reads the argument block's rows (0, k, r); outside them the zero of the earlier, whole store. -/
theorem firstCanon_apply (a : S22x22.Idx → EReal) (x1 : S8x66x50.Idx → EReal) (p : Fin 1280) (q : Fin 66) (r : Fin 50) :
    firstCanon a x1 (ix3 p q r)
      = if p.val = 0 ∧ q.val < 22 then ∑ k : Fin 22, a (ix2 (toJoint q) k) * x1 (ix3 (0 : Fin 8) (joint k) r) else 0 := by
  by_cases h : p.val = 0 ∧ q.val < 22
  · rw [if_pos h]
    have hq : (toJoint q).val = q.val := Nat.mod_eq_of_lt h.2
    have hy : (ix3 p q r : S1280x66x50.Idx)
        = (Rect.unit (s := S1280x66x50) ![0, 0, 0] S1x22x50.size inb_S1280x66x50_S1x22x50_0_0_0).emb
            (ix3 (0 : Fin 1) (toJoint q) r) := by
      funext ax
      apply Fin.ext
      match ax with
      | ⟨0, _⟩ => show p.val = 0 + 1 * 0; omega
      | ⟨1, _⟩ => show q.val = 0 + 1 * (toJoint q).val; omega
      | ⟨2, _⟩ => show r.val = 0 + 1 * r.val; omega
    unfold firstCanon
    rw [hy, View.canon_cons_emb, pay2_apply]
    refine Finset.sum_congr rfl fun k _ => ?_
    refine congrArg (a (ix2 (toJoint q) k) * ·) ?_
    show x1 ((Rect.unit (s := S8x66x50) ![0, 0, 0] S1x22x50.size inb_S8x66x50_S1x22x50_0_0_0).idx (ix3 (0 : Fin 1) k r))
      = x1 (ix3 (0 : Fin 8) (joint k) r)
    refine congrArg x1 (funext fun ax => Fin.ext ?_)
    match ax with
    | ⟨0, _⟩ => show 0 + 1 * 0 = 0; omega
    | ⟨1, _⟩ => show 0 + 1 * k.val = k.val; omega
    | ⟨2, _⟩ => show 0 + 1 * r.val = r.val; omega
  · rw [if_neg h]
    have hn : (ix3 p q r : S1280x66x50.Idx)
        ∉ (Rect.unit (s := S1280x66x50) ![0, 0, 0] S1x22x50.size inb_S1280x66x50_S1x22x50_0_0_0).set := by
      rw [Rect.mem_set_unit]
      intro hm
      have h0 : (0 : ℕ) ≤ p.val ∧ p.val < 0 + 1 := hm 0
      have h1 : (0 : ℕ) ≤ q.val ∧ q.val < 0 + 22 := hm 1
      exact h ⟨by omega, by omega⟩
    unfold firstCanon
    rw [View.canon_cons_of_not_mem _ _ hn, View.canon_unit_zero hz3]
    show Ideal.ofBits .f32 0x00000000#32 = 0
    exact Ideal.ofBits_zero_f32

/-- The zero block at any index. -/
theorem zeroBlock_apply (j : S1280x66x50.Idx) : k0_pay1 (F := Ideal) j = 0 := by
  show Ideal.ofBits .f32 0x00000000#32 = 0
  exact Ideal.ofBits_zero_f32

end Cert.KernelIdeal.Block

end
-- ==== Proof.KernelTable.lean ====
/-
  The kernel's 22 × 22 table of constants is the skeleton's adjacency: entry (v, k), word 22 v + k of the table in
  row-major order, is the word of 1.0 when some edge goes from joint k to joint v and the zero word otherwise; at the
  exact instance those words denote 1 and 0.
-/
import proofs.«177231_j80307298501385_1_alg».proof.KernelIdeal
import proofs.«177231_j80307298501385_1_alg».proof.Proof.Spec
import Idealize.ShloMosaic.PureOps.Ideal.Laws
import Idealize.ShloMosaic.Lib.ValueIdx

noncomputable section

namespace Cert.KernelIdeal.Table

open Cert.KernelIdeal Cert.Skeleton Idealize.ShloMosaic Idealize.ShloMosaic.ValueIdx

/-- The word of 1.0 denotes one. -/
theorem ofBits_one : Ideal.ofBits .f32 0x3F800000#32 = 1 := by
  simp [Ideal.ofBits, Ideal.ieee, -EReal.coe_mul]; norm_num

/-- Word 22 v + k of the table: 1.0 on the adjacent pairs, zero elsewhere (decided over the 484 entries). -/
theorem word_eq : ∀ v k : Fin 22,
    lit0t (v.val * 22 + k.val) = if adj v k then 0x3F800000#32 else 0x00000000#32 := by decide +kernel

/-- The table at (v, k), at the exact instance: one on the adjacent pairs, zero elsewhere. -/
theorem table_apply (v k : Fin 22) :
    Ideal.ofBits .f32 (lit0 (S22x22.rowMajor (ix2 v k))) = if adj v k then 1 else 0 := by
  have e : lit0 (S22x22.rowMajor (ix2 v k)) = lit0t (v.val * 22 + k.val) := by
    show lit0t (S22x22.rowMajor (ix2 v k)).val = _
    rw [Shape.rowMajor_val_two]
    rfl
  rw [e, word_eq]
  by_cases h : adj v k
  · rw [if_pos h, if_pos h, ofBits_one]
  · rw [if_neg h, if_neg h, Ideal.ofBits_zero_f32]

end Cert.KernelIdeal.Table

end
-- ==== Proof.KernelValue.lean ====
/-
  The kernel's result array read off its run.

  Grid point t writes back block t of the result: batch entries 1280 t … 1280 t + 1279. Away from the first point the
  block is zero. At the first point it is zero except on rows (0, q, ·), q < 22, where it holds the table's row q times
  rows (0, k, ·) of the argument's first block, which are rows (0, k, ·) of the argument itself. Either way block t is
  block t of ONE function of the table and the argument — the table's product on the joints of batch entry 0, zero
  elsewhere — and the ten blocks tile the array, so the array ends holding that function. With the table the adjacency
  it is the specification's function.
-/
import proofs.«177231_j80307298501385_1_alg».proof.Proof.Gen.KernelIdeal.Value
import proofs.«177231_j80307298501385_1_alg».proof.Proof.KernelBlock
import proofs.«177231_j80307298501385_1_alg».proof.Proof.KernelTable
import proofs.«177231_j80307298501385_1_alg».proof.Proof.Spec
import Idealize.ShloMosaic.Lib.StableHlo.Run

set_option maxRecDepth 16384

open scoped BigOperators

noncomputable section

namespace Cert.KernelIdeal.ArrayValue

open Cert.KernelIdeal Cert.KernelIdeal.Gen Cert.KernelIdeal.Block Cert.KernelIdeal.Table Cert.Skeleton
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The table and the argument as the region finds them, and their blocks at a point, at their literal types. -/
abbrev tarr (c : Dev nD) : S22x22.Idx → EReal := V m c main_cst
abbrev xarr (c : Dev nD) : S12800x66x50.Idx → EReal := V m c main_arg0
abbrev tblk (c : Dev nD) (t : Fin cfg0.N) : S22x22.Idx → EReal := iblk m c 0 t
abbrev xblk (c : Dev nD) (t : Fin cfg0.N) : S8x66x50.Idx → EReal := iblk m c 1 t

/-- The printed index maps, decided over the grid: the table's and the argument's block index is zero at every
    point; the result's is the point on the batch axis and zero on the others. -/
theorem idx_facts : ∀ t : Fin cfg0.N,
    win0_0.index t (0 : Fin 2) = 0 ∧ win0_0.index t (1 : Fin 2) = 0
    ∧ win0_1.index t (0 : Fin 3) = 0 ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The table's block is the table. -/
theorem tblk_apply (c : Dev nD) (t : Fin cfg0.N) (q k : Fin 22) : tblk m c t (ix2 q k) = tarr m c (ix2 q k) := by
  obtain ⟨e0, e1, -⟩ := idx_facts t
  show tarr m c (((cfg0.win 0).blk t).view.emb (ix2 q k)) = tarr m c (ix2 q k)
  refine congrArg (tarr m c) (funext fun ax => Fin.ext ?_)
  match ax with
  | ⟨0, _⟩ => show win0_0.index t (0 : Fin 2) * 22 + 1 * q.val = q.val; omega
  | ⟨1, _⟩ => show win0_0.index t (1 : Fin 2) * 22 + 1 * k.val = k.val; omega

/-- Row (0, k) of the argument's block is row (0, k) of the argument. -/
theorem xblk_apply (c : Dev nD) (t : Fin cfg0.N) (k : Fin 66) (r : Fin 50) :
    xblk m c t (ix3 (0 : Fin 8) k r) = xarr m c (ix3 b0 k r) := by
  obtain ⟨-, -, e0, e1, e2, -⟩ := idx_facts t
  show xarr m c (((cfg0.win 1).blk t).view.emb (ix3 (0 : Fin 8) k r)) = xarr m c (ix3 b0 k r)
  refine congrArg (xarr m c) (funext fun ax => Fin.ext ?_)
  match ax with
  | ⟨0, _⟩ => show win0_1.index t (0 : Fin 3) * 8 + 1 * 0 = 0; omega
  | ⟨1, _⟩ => show win0_1.index t (1 : Fin 3) * 66 + 1 * k.val = k.val; omega
  | ⟨2, _⟩ => show win0_1.index t (2 : Fin 3) * 50 + 1 * r.val = r.val; omega

/-- The first point's block at any index of the block. -/
theorem firstCanon_at (a : S22x22.Idx → EReal) (x1 : S8x66x50.Idx → EReal) (j : S1280x66x50.Idx) :
    firstCanon a x1 j
      = if (j 0).val = 0 ∧ (j 1).val < 22 then ∑ k : Fin 22, a (ix2 (toJoint (j 1)) k) * x1 (ix3 (0 : Fin 8) (joint k) (j 2)) else 0 :=
  (congrArg (firstCanon a x1) (eq_ix3 j)).trans (firstCanon_apply a x1 (j 0) (j 1) (j 2))

/-- WHAT POINT t WRITES BACK is block t of the kernel-form result of the table and the argument as the region finds
    them. -/
theorem flushed_eq (c : Dev nD) (t : Fin cfg0.N) :
    (dats m 0 c).flushed 2 t = ((cfg0.win 2).blk t).view.read (Elt Ideal) (K (tarr m c) (xarr m c)) := by
  obtain ⟨-, -, -, -, -, e0, e1, e2⟩ := idx_facts t
  have hN : t.val < 10 := lt_of_lt_of_eq t.isLt (show cfg0.N = 10 from N_0)
  by_cases h0 : t.val % 10 = 0
  · have ht : t.val = 0 := by omega
    rw [Value.flushed2_A m c t h0,
      firstBlock (F := Ideal) c (grid0.coords t) (ms0_0 t) (hs0_0 t) (ms0_1 t) (hs0_1 t) (ms0_2 t) (hs0_2 t) ((hcond0_0 t).mpr h0)
        (tblk m c t) (xblk m c t)]
    funext j
    refine (firstCanon_at (tblk m c t) (xblk m c t) j).trans ?_
    have E0 : ((((cfg0.win 2).blk t).view.emb j) 0).val = (j 0).val := by
      show win0_2.index t (0 : Fin 3) * 1280 + 1 * (j 0).val = (j 0).val; omega
    have E1 : (((cfg0.win 2).blk t).view.emb j) 1 = j 1 :=
      Fin.ext (by show win0_2.index t (1 : Fin 3) * 66 + 1 * (j 1).val = (j 1).val; omega)
    have E2 : (((cfg0.win 2).blk t).view.emb j) 2 = j 2 :=
      Fin.ext (by show win0_2.index t (2 : Fin 3) * 50 + 1 * (j 2).val = (j 2).val; omega)
    show _ = Kc (tarr m c) (xarr m c) ((((cfg0.win 2).blk t).view.emb j) 0) ((((cfg0.win 2).blk t).view.emb j) 1)
      ((((cfg0.win 2).blk t).view.emb j) 2)
    rw [E1, E2]
    unfold Kc
    by_cases h : (j 0).val = 0 ∧ (j 1).val < 22
    · rw [if_pos h, if_pos ⟨E0.trans h.1, h.2⟩]
      refine Finset.sum_congr rfl fun k _ => ?_
      rw [tblk_apply m c t (toJoint (j 1)) k, xblk_apply m c t (joint k) (j 2)]
    · rw [if_neg h, if_neg (fun h' => h ⟨E0.symm.trans h'.1, h'.2⟩)]
  · rw [Value.flushed2_B m c t h0,
      restBlock (F := Ideal) c (grid0.coords t) (ms0_0 t) (hs0_0 t) (ms0_1 t) (hs0_1 t) (ms0_2 t) (hs0_2 t)
        (fun h => h0 ((hcond0_0 t).mp h)) (tblk m c t) (xblk m c t)]
    funext j
    refine (zeroBlock_apply j).trans ?_
    have E0 : ((((cfg0.win 2).blk t).view.emb j) 0).val = t.val * 1280 + (j 0).val := by
      show win0_2.index t (0 : Fin 3) * 1280 + 1 * (j 0).val = t.val * 1280 + (j 0).val; omega
    show (0 : EReal) = Kc (tarr m c) (xarr m c) ((((cfg0.win 2).blk t).view.emb j) 0) ((((cfg0.win 2).blk t).view.emb j) 1)
      ((((cfg0.win 2).blk t).view.emb j) 2)
    unfold Kc
    rw [if_neg]
    intro h'
    have := h'.1
    omega

/-- An index of the array is in point t's block iff each coordinate is in the block's range on its axis. -/
theorem mem_blk (t : Fin cfg0.N) (i : S12800x66x50.Idx) :
    i ∈ ((cfg0.win 2).blk t).view.set ↔ ∀ a : Fin 3, win0_2.index t a * S1280x66x50.size a ≤ (i a).val
      ∧ (i a).val < win0_2.index t a * S1280x66x50.size a + S1280x66x50.size a := by
  show i ∈ ((View.whole main_v0).slice (win0_2.rect t)).set ↔ _
  rw [View.set_slice_whole, Rect.mem_set_unit]
  exact Iff.rfl

/-- The ten blocks tile the array: batch entry b lies in block b / 1280. -/
theorem cover (i : S12800x66x50.Idx) :
    ∃ t : Fin cfg0.N, (cfg0.win 2).flush t = true ∧ i ∈ ((cfg0.win 2).blk t).view.set := by
  have hi0 : (i 0).val < 12800 := (i 0).isLt
  have hi1 : (i 1).val < 66 := (i 1).isLt
  have hi2 : (i 2).val < 50 := (i 2).isLt
  have hN : cfg0.N = 10 := N_0
  have ht : (i 0).val / 1280 < cfg0.N := by rw [hN]; omega
  obtain ⟨-, -, -, -, -, e0, e1, e2⟩ := idx_facts ⟨(i 0).val / 1280, ht⟩
  have e0' : win0_2.index ⟨(i 0).val / 1280, ht⟩ (0 : Fin 3) = (i 0).val / 1280 := e0
  refine ⟨⟨(i 0).val / 1280, ht⟩, flush0_2 _, ?_⟩
  rw [mem_blk]
  intro a
  match a with
  | ⟨0, _⟩ =>
    show win0_2.index ⟨(i 0).val / 1280, ht⟩ (0 : Fin 3) * 1280 ≤ (i 0).val
      ∧ (i 0).val < win0_2.index ⟨(i 0).val / 1280, ht⟩ (0 : Fin 3) * 1280 + 1280
    omega
  | ⟨1, _⟩ =>
    show win0_2.index ⟨(i 0).val / 1280, ht⟩ (1 : Fin 3) * 66 ≤ (i 1).val
      ∧ (i 1).val < win0_2.index ⟨(i 0).val / 1280, ht⟩ (1 : Fin 3) * 66 + 66
    omega
  | ⟨2, _⟩ =>
    show win0_2.index ⟨(i 0).val / 1280, ht⟩ (2 : Fin 3) * 50 ≤ (i 2).val
      ∧ (i 2).val < win0_2.index ⟨(i 0).val / 1280, ht⟩ (2 : Fin 3) * 50 + 50
    omega

/-- THE ARRAY after the run: the kernel-form result of the table and the argument as the region finds them. -/
theorem final (c : Dev nD) : (dats m 0 c).arrAt 2 cfg0.N = K (tarr m c) (xarr m c) :=
  (dats m 0 c).arrAt_eq_of_cover 2 (K (tarr m c) (xarr m c)) (fun t _ => flushed_eq m c t) cover

/-- The region finds the table as the host constant wrote it: the literal words, row-major. -/
theorem tarr_eq (c : Dev nD) : tarr m c = fun i => Ideal.ofBits .f32 (lit0 (S22x22.rowMajor i)) := by
  show (V m c main_cst : S22x22.Idx → EReal) = _
  dsimp only [Gen.V, Gen.hostOps0]
  after_results
  rfl

/-- So it is the adjacency. -/
theorem tarr_apply (c : Dev nD) (v k : Fin 22) : tarr m c (ix2 v k) = if adj v k then 1 else 0 := by
  rw [tarr_eq]
  exact table_apply v k

/-- The region finds the argument as launched. -/
theorem xarr_eq (c : Dev nD) : xarr m c = m ((c : Thread nD τ).loc main_arg0) := V_main_arg0 m c

/-- THE KERNEL'S RUN: every weakly fair execution ends with the result at the specification's function of the
    argument, and the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans ((final m c).trans (by
      rw [K_eq_G (tarr m c) (tarr_apply m c) (xarr m c), xarr_eq])), (h c).2⟩)
    (Value.run_blocks m ρ)

end Cert.KernelIdeal.ArrayValue

end
-- ==== Proof.RefRun.lean ====
/-
  The reference program's run, read back: its 25 host operations in order, and the fact that every weakly fair
  execution ends with the result buffer at the operations' composed term of the argument, the argument unchanged.

  The composed term: the argument flattened to 844800 rows of 50 features; the 43 source rows gathered; a zero array
  of the flat shape into which the gathered rows are added at the 43 target rows; the sum reshaped back. Both index
  tables pass through the wrap of a negative word by the row count before they are laid out as a [43, 1] column.
-/
import proofs.«177231_j80307298501385_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The target rows' words, as a length-43 vector. -/
def rowWords : IVec S43 32 := fun i => lit0 (S43.rowMajor i)

/-- The source rows' words, as a length-43 vector. -/
def colWords : IVec S43 32 := fun i => lit1 (S43.rowMajor i)

/-- A table of row words made into an index column: a negative word is wrapped by the row count 844800, then the
    vector is laid out as [43, 1]. -/
def idxCol (C : IVec S43 32) : IVec S43x1 32 :=
  broadcastInDim S43x1 ![0] bcast_S43_S43x1_0
    (select (cmpi .slt C (broadcastInDim S43 ![] bcast_S_S43 (constantI S_ 32 0#32)))
      (addi C (broadcastInDim S43 ![] bcast_S_S43 (constantI S_ 32 844800#32))) C)

/-- The argument as 844800 rows of 50 features. -/
def flat (x : FVec F S12800x66x50 .f32) : FVec F S844800x50 .f32 :=
  shapeCast S844800x50 x shapeCasts_S12800x66x50_S844800x50

/-- The 43 source rows. -/
def gathered (x : FVec F S12800x66x50 .f32) : FVec F S43x50 .f32 :=
  Host.gather gather_S844800x50_S43x1_S43x50_1_0_n_n_0_1_150 (flat x) (idxCol colWords)

/-- The flat result: the gathered rows added into a zero array at the target rows. -/
def flatResult (x : FVec F S12800x66x50 .f32) : FVec F S844800x50 .f32 :=
  Host.scatterAdd scatter_S844800x50_S43x1_S43x50_1_0_0_1
    (broadcastInDim S844800x50 ![] bcast_S_S844800x50 (constant S_ .f32 0x00000000#32)) (idxCol rowWords) (gathered x)

/-- The reference's result as a function of its argument. -/
def result (x : FVec F S12800x66x50 .f32) : FVec F S12800x66x50 .f32 :=
  shapeCast S12800x66x50 (flatResult x) shapeCasts_S844800x50_S12800x66x50

/-- @main's 25 operations, in order. -/
abbrev ops : List (HloOp τ sig (Elt F)) :=
  [ nullary main_c (fun i => lit0 (S43.rowMajor i)),
    nullary main_c_0 (fun i => lit1 (S43.rowMajor i)),
    reshape main_arg0 main_v0 rfl shapeCasts_S12800x66x50_S844800x50,
    nullary main_c_1 (constantI S_ 32 0#32),
    unary main_c_1 main_v1 (broadcastInDim S43 ![] bcast_S_S43 : (⟨S_, .i32⟩ : BufTy).Contents (Elt F) → (⟨S43, .i32⟩ : BufTy).Contents (Elt F)),
    binary main_c_0 main_v1 main_v2 (cmpi .slt : (⟨S43, .i32⟩ : BufTy).Contents (Elt F) → (⟨S43, .i32⟩ : BufTy).Contents (Elt F) → (⟨S43, .i1⟩ : BufTy).Contents (Elt F)),
    nullary main_c_2 (constantI S_ 32 844800#32),
    unary main_c_2 main_v3 (broadcastInDim S43 ![] bcast_S_S43 : (⟨S_, .i32⟩ : BufTy).Contents (Elt F) → (⟨S43, .i32⟩ : BufTy).Contents (Elt F)),
    binary main_c_0 main_v3 main_v4 (addi : (⟨S43, .i32⟩ : BufTy).Contents (Elt F) → (⟨S43, .i32⟩ : BufTy).Contents (Elt F) → (⟨S43, .i32⟩ : BufTy).Contents (Elt F)),
    ternary main_v2 main_v4 main_c_0 main_v5 (select : (⟨S43, .i1⟩ : BufTy).Contents (Elt F) → (⟨S43, .i32⟩ : BufTy).Contents (Elt F) → (⟨S43, .i32⟩ : BufTy).Contents (Elt F) → (⟨S43, .i32⟩ : BufTy).Contents (Elt F)),
    unary main_v5 main_v6 (broadcastInDim S43x1 ![0] bcast_S43_S43x1_0 : (⟨S43, .i32⟩ : BufTy).Contents (Elt F) → (⟨S43x1, .i32⟩ : BufTy).Contents (Elt F)),
    binary main_v0 main_v6 main_v7 ((fun x i => Host.gather gather_S844800x50_S43x1_S43x50_1_0_n_n_0_1_150 x i) : (⟨S844800x50, .f32⟩ : BufTy).Contents (Elt F) → (⟨S43x1, .i32⟩ : BufTy).Contents (Elt F) → (⟨S43x50, .f32⟩ : BufTy).Contents (Elt F)),
    nullary main_cst (constant S_ .f32 0x00000000#32),
    unary main_cst main_v8 (broadcastInDim S844800x50 ![] bcast_S_S844800x50 : (⟨S_, .f32⟩ : BufTy).Contents (Elt F) → (⟨S844800x50, .f32⟩ : BufTy).Contents (Elt F)),
    nullary main_c_3 (constantI S_ 32 0#32),
    unary main_c_3 main_v9 (broadcastInDim S43 ![] bcast_S_S43 : (⟨S_, .i32⟩ : BufTy).Contents (Elt F) → (⟨S43, .i32⟩ : BufTy).Contents (Elt F)),
    binary main_c main_v9 main_v10 (cmpi .slt : (⟨S43, .i32⟩ : BufTy).Contents (Elt F) → (⟨S43, .i32⟩ : BufTy).Contents (Elt F) → (⟨S43, .i1⟩ : BufTy).Contents (Elt F)),
    nullary main_c_4 (constantI S_ 32 844800#32),
    unary main_c_4 main_v11 (broadcastInDim S43 ![] bcast_S_S43 : (⟨S_, .i32⟩ : BufTy).Contents (Elt F) → (⟨S43, .i32⟩ : BufTy).Contents (Elt F)),
    binary main_c main_v11 main_v12 (addi : (⟨S43, .i32⟩ : BufTy).Contents (Elt F) → (⟨S43, .i32⟩ : BufTy).Contents (Elt F) → (⟨S43, .i32⟩ : BufTy).Contents (Elt F)),
    ternary main_v10 main_v12 main_c main_v13 (select : (⟨S43, .i1⟩ : BufTy).Contents (Elt F) → (⟨S43, .i32⟩ : BufTy).Contents (Elt F) → (⟨S43, .i32⟩ : BufTy).Contents (Elt F) → (⟨S43, .i32⟩ : BufTy).Contents (Elt F)),
    unary main_v13 main_v14 (broadcastInDim S43x1 ![0] bcast_S43_S43x1_0 : (⟨S43, .i32⟩ : BufTy).Contents (Elt F) → (⟨S43x1, .i32⟩ : BufTy).Contents (Elt F)),
    ternary main_v8 main_v14 main_v7 main_v15 ((fun x i u => Host.scatterAdd scatter_S844800x50_S43x1_S43x50_1_0_0_1 x i u) : (⟨S844800x50, .f32⟩ : BufTy).Contents (Elt F) → (⟨S43x1, .i32⟩ : BufTy).Contents (Elt F) → (⟨S43x50, .f32⟩ : BufTy).Contents (Elt F) → (⟨S844800x50, .f32⟩ : BufTy).Contents (Elt F)),
    reshape main_v15 main_v16 rfl shapeCasts_S844800x50_S12800x66x50 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., nullary_bufs_sub .., unary_bufs_sub .., binary_bufs_sub .., nullary_bufs_sub ..,
    unary_bufs_sub .., binary_bufs_sub .., ternary_bufs_sub .., unary_bufs_sub .., ternary_bufs_sub .., reshape_bufs_sub ..⟩

/-- On every device, for any float values, from any memory with zero counters: every weakly fair execution of @main
    terminates with the result buffer at `result` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = result (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v16).trans (by after_results; rfl),
      (h c main_arg0).trans (by after_results)⟩)
    (run_seq scopedRefs_eq scopedSems_eq defs main (fun _ => ops) main_eq (fun _ => ops_sub) m ρ)

end Cert.ReferenceIdeal.RefRun

end
-- ==== Proof.LibScatterFold.lean ====
/-
  A scatter whose body returns the update ("set"): the row-major left fold in which each update replaces the element at
  its result index. If at least one update lands on an element and every update that lands there carries the same value,
  the folded array holds that value there, whatever the order and whatever the start array.

  `foldl_proj_eq_of_hit` is the fold fact in the abstract (a state, a projection of it, steps that either set the
  projection to `v` or leave it alone); `scatter_set_apply` is it for `Host.scatter … (fun _ b => b)`;
  `rowScatter_resultIdx_eq_some_iff` reads the result index of a ROW scatter (operand [N, C], indices an [R, 1] column,
  updates [R, C]: update row `i` goes to the operand row its index word names, read signed, and is dropped when that is
  outside the operand) off the index column.
-/
import Idealize.ShloMosaic.PureOps.ShapeOps
import Idealize.ShloMosaic.Lib.ValueIdx

namespace Idealize.ShloMosaic.ScatterFold

open Idealize.ShloMosaic Idealize.ShloMosaic.ValueIdx

/-- A left fold whose steps either SET a projection of the state to `v` (the steps of `hit`) or LEAVE it (the others):
    if some step of the list hits, the projection of the result is `v`. The invariant, for every start state: the
    projection is already `v`, or a hit is still to come. -/
theorem foldl_proj_eq_of_hit {κ β α : Type} (step : β → κ → β) (π : β → α) (hit : κ → Prop) (v : α) (l : List κ)
    (hset : ∀ k ∈ l, hit k → ∀ r, π (step r k) = v)
    (hkeep : ∀ k ∈ l, ¬ hit k → ∀ r, π (step r k) = π r)
    (x : β) (hx : π x = v ∨ ∃ k ∈ l, hit k) : π (l.foldl step x) = v := by
  induction l generalizing x with
  | nil =>
    rcases hx with hx | ⟨k, hk, _⟩
    · exact hx
    · exact absurd hk List.not_mem_nil
  | cons k l ih =>
    rw [List.foldl_cons]
    refine ih (fun k' hk' => hset k' (List.mem_cons_of_mem _ hk')) (fun k' hk' => hkeep k' (List.mem_cons_of_mem _ hk')) _ ?_
    by_cases hk : hit k
    · exact Or.inl (hset k List.mem_cons_self hk x)
    · rcases hx with hx | ⟨k', hk', hh⟩
      · exact Or.inl ((hkeep k List.mem_cons_self hk x).trans hx)
      · rcases List.mem_cons.1 hk' with rfl | hk'
        · exact absurd hh hk
        · exact Or.inr ⟨k', hk', hh⟩

variable {s si u : Shape} {α : Type} {w : Nat}

/-- A "set" scatter read at `i'`: when some update's result index is `i'` and every update whose result index is `i'`
    carries `v`, the result at `i'` is `v` (the operand and the order of the updates play no part). -/
theorem scatter_set_apply (d : ScatterDims s si u) (x : s.Idx → α) (idx : IVec si w) (upd : u.Idx → α) (i' : s.Idx) (v : α)
    (hex : ∃ j : u.Idx, d.resultIdx? j idx = some i')
    (hall : ∀ j : u.Idx, d.resultIdx? j idx = some i' → upd j = v) :
    Host.scatter d (fun _ b => b) x idx upd i' = v := by
  unfold Host.scatter
  refine foldl_proj_eq_of_hit _ (fun r => r i') (fun n => d.resultIdx? (u.rowMajor.symm n) idx = some i') v _ ?_ ?_ x ?_
  · intro n _ hn r
    show (match d.resultIdx? (u.rowMajor.symm n) idx with
      | some i => fun i'' => if i'' = i then upd (u.rowMajor.symm n) else r i''
      | none => r) i' = v
    rw [hn]
    show (if i' = i' then upd (u.rowMajor.symm n) else r i') = v
    rw [if_pos rfl]
    exact hall _ hn
  · intro n _ hn r
    show (match d.resultIdx? (u.rowMajor.symm n) idx with
      | some i => fun i'' => if i'' = i then upd (u.rowMajor.symm n) else r i''
      | none => r) i' = r i'
    cases hr : d.resultIdx? (u.rowMajor.symm n) idx with
    | none => rfl
    | some i =>
      show (if i' = i then upd (u.rowMajor.symm n) else r i') = r i'
      rw [if_neg]
      intro h
      exact hn (by rw [hr, h])
  · obtain ⟨j, hj⟩ := hex
    refine Or.inr ⟨u.rowMajor j, List.mem_finRange _, ?_⟩
    show d.resultIdx? (u.rowMajor.symm (u.rowMajor j)) idx = some i'
    rw [Equiv.symm_apply_apply]
    exact hj

/-! ## The row scatter: one scalar index per update row, the window a whole row -/

section RowScatter

/-- The entries of a one-element list. -/
theorem getElem_of_eq_singleton {β : Type} {l : List β} {a : β} (h : l = [a]) (k : Nat) (hk : k < l.length) : l[k] = a := by
  subst h
  have hk0 : k = 0 := by simpa using hk
  subst hk0
  rfl

variable {N R C w : Nat} (d : ScatterDims ⟨2, ![N, C]⟩ ⟨2, ![R, 1]⟩ ⟨2, ![R, C]⟩)
  (huw : d.updateWindowDims = [1]) (hiw : d.insertedWindowDims = [0]) (hsd : d.scatterDimsToOperandDims = [0])
  (hiv : d.indexVectorDim = 1)

include hsd hiv huw in
theorem rowScatter_start_zero (idx : IVec ⟨2, ![R, 1]⟩ w) (j : (⟨2, ![R, C]⟩ : Shape).Idx) :
    d.start j idx 0 = (idx (ix2 (j 0) 0)).toInt := by
  have hm : (0 : Fin 2) ∈ d.scatterDimsToOperandDims := by rw [hsd]; exact List.mem_singleton.mpr rfl
  have hus : d.uScatter = [0] := by
    show Shape.kept _ d.updateWindowDims = [0]
    rw [huw]; rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    rw [getElem_of_eq_singleton hus]
  | ⟨1, _⟩ =>
    unfold ScatterDims.siIdx
    rw [dif_pos (by rw [hiv])]
    apply Fin.ext
    show List.idxOf (0 : Fin 2) d.scatterDimsToOperandDims = 0
    rw [hsd]; simp

include hsd in
theorem rowScatter_start_one (idx : IVec ⟨2, ![R, 1]⟩ w) (j : (⟨2, ![R, C]⟩ : Shape).Idx) :
    d.start j idx 1 = 0 := by
  have hm : (1 : Fin 2) ∉ d.scatterDimsToOperandDims := by rw [hsd]; simp
  unfold ScatterDims.start
  rw [dif_neg hm]

include hiw in
theorem rowScatter_window_zero (j : (⟨2, ![R, C]⟩ : Shape).Idx) : d.window j 0 = 0 := by
  have hsk : d.sKept = [1] := by
    show Shape.kept _ d.insertedWindowDims = [1]
    rw [hiw]; rfl
  have hm : (0 : Fin 2) ∉ d.sKept := by rw [hsk]; simp
  unfold ScatterDims.window
  rw [dif_neg hm]

include hiw huw in
theorem rowScatter_window_one (j : (⟨2, ![R, C]⟩ : Shape).Idx) : d.window j 1 = (j 1).val := by
  have hsk : d.sKept = [1] := by
    show Shape.kept _ d.insertedWindowDims = [1]
    rw [hiw]; rfl
  have hm : (1 : Fin 2) ∈ d.sKept := by rw [hsk]; exact List.mem_singleton.mpr rfl
  unfold ScatterDims.window
  rw [dif_pos hm, getElem_of_eq_singleton huw]

include huw hiw hsd hiv in
/-- The result index of update element `(i, c)` of a ROW scatter (one scalar index per update row, read off the
    index column; the window one whole row): it is `k` exactly when the row's index word, read signed, is `k`'s row
    and `c` is `k`'s column. -/
theorem rowScatter_resultIdx_eq_some_iff (idx : IVec ⟨2, ![R, 1]⟩ w) (i : Fin R) (c : Fin C) (k : (⟨2, ![N, C]⟩ : Shape).Idx) :
    d.resultIdx? (ix2 i c) idx = some k ↔ (idx (ix2 i 0)).toInt = ((k 0).val : Int) ∧ (k 1).val = c.val := by
  have h00 : d.start (ix2 i c) idx 0 = (idx (ix2 i 0)).toInt := rowScatter_start_zero d huw hsd hiv idx (ix2 i c)
  have h01 := rowScatter_start_one d hsd idx (ix2 i c)
  have h10 := rowScatter_window_zero d hiw (ix2 i c)
  have h11 : d.window (ix2 i c) 1 = c.val := rowScatter_window_one d huw hiw (ix2 i c)
  have e0 : d.start (ix2 i c) idx 0 + (d.window (ix2 i c) 0 : Int) = (idx (ix2 i 0)).toInt := by
    rw [h00, h10]; simp
  have e1 : d.start (ix2 i c) idx 1 + (d.window (ix2 i c) 1 : Int) = (c.val : Int) := by
    rw [h01, h11]; simp
  have hk0 := (k 0).isLt
  have hk1 := (k 1).isLt
  unfold ScatterDims.resultIdx?
  constructor
  · intro h
    split at h
    · next hin =>
      have hf := Option.some.inj h
      have f0 := congrArg (fun f => (f 0).val) hf
      have f1 := congrArg (fun f => (f 1).val) hf
      simp only at f0 f1
      have i0 := hin 0
      have i1 := hin 1
      rw [e0] at i0 f0
      rw [e1] at i1 f1
      constructor
      · omega
      · omega
    · exact absurd h (by simp)
  · rintro ⟨hr, hc⟩
    have hin : ∀ a, 0 ≤ d.start (ix2 i c) idx a + (d.window (ix2 i c) a : Int)
        ∧ d.start (ix2 i c) idx a + (d.window (ix2 i c) a : Int) < ((⟨2, ![N, C]⟩ : Shape).size a : Nat) := by
      intro a
      match a with
      | ⟨0, _⟩ =>
        show 0 ≤ d.start (ix2 i c) idx 0 + (d.window (ix2 i c) 0 : Int) ∧ d.start (ix2 i c) idx 0 + (d.window (ix2 i c) 0 : Int) < (N : Nat)
        rw [e0, hr]
        have : (k 0).val < N := hk0
        omega
      | ⟨1, _⟩ =>
        show 0 ≤ d.start (ix2 i c) idx 1 + (d.window (ix2 i c) 1 : Int) ∧ d.start (ix2 i c) idx 1 + (d.window (ix2 i c) 1 : Int) < (C : Nat)
        rw [e1]
        have : c.val < C := c.isLt
        omega
    rw [dif_pos hin]
    congr 1
    funext a
    apply Fin.ext
    match a with
    | ⟨0, _⟩ =>
      show (d.start (ix2 i c) idx 0 + (d.window (ix2 i c) 0 : Int)).toNat = (k 0).val
      rw [e0, hr]; simp
    | ⟨1, _⟩ =>
      show (d.start (ix2 i c) idx 1 + (d.window (ix2 i c) 1 : Int)).toNat = (k 1).val
      rw [e1, hc]; simp

end RowScatter

end Idealize.ShloMosaic.ScatterFold
-- ==== Proof.LibScatterSum.lean ====
/-
  The accumulating host scatter (a scatter whose body adds; exact at the ideal instance: each operand element plus the
  sum of the updates that land on it) read at an index as a sum over the update ROWS, for the two shapes a segment sum
  lowers to: the ROW scatter (operand [N, C], one index word per update row, the window a whole row) and the SCALAR
  scatter (operand [N], one index word per update element). An update whose index word, read signed, names no operand
  row lands nowhere, so it adds nothing: in both forms the sum keeps exactly the rows whose word is the row read.
-/
import Idealize.ShloMosaic.PureOps.Ideal
import Idealize.ShloMosaic.Lib.ValueIdx
import proofs.«177231_j80307298501385_1_alg».proof.Proof.LibScatterFold

open scoped BigOperators

namespace Idealize.ShloMosaic.ScatterSum

open Idealize.ShloMosaic Idealize.ShloMosaic.ValueIdx Idealize.ShloMosaic.ScatterFold

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The row scatter -/

/-- The accumulating ROW scatter at element `(k0, k1)`: the operand's element plus the sum, over the update rows whose
    index word read signed is `k0`, of the row's element in column `k1`. -/
theorem rowScatterAdd_apply {N R C w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![R, 1]⟩ w) (upd : (⟨2, ![R, C]⟩ : Shape).Idx → EReal)
    (k0 : Fin N) (k1 : Fin C) :
    Ideal.hostScatterAdd d x idx upd (ix2 k0 k1)
      = x (ix2 k0 k1) + ∑ n : Fin R, if (idx (ix2 n 0)).toInt = (k0.val : Int) then upd (ix2 n k1) else 0 := by
  unfold Ideal.hostScatterAdd
  congr 1
  rw [Finset.sum_filter, sum_idx2]
  refine Finset.sum_congr rfl fun n _ => ?_
  have hiff : ∀ c : Fin C, (d.resultIdx? (ix2 n c) idx = some (ix2 k0 k1))
      ↔ ((idx (ix2 n 0)).toInt = (k0.val : Int) ∧ k1.val = c.val) :=
    fun c => rowScatter_resultIdx_eq_some_iff d huw hiw hsd hiv idx n c (ix2 k0 k1)
  by_cases hA : (idx (ix2 n 0)).toInt = (k0.val : Int)
  · rw [if_pos hA, Finset.sum_eq_single k1]
    · rw [if_pos ((hiff k1).2 ⟨hA, rfl⟩)]
    · intro c _ hc
      rw [if_neg]
      intro h
      exact hc (Fin.ext ((hiff c).1 h).2.symm)
    · intro h; exact absurd (Finset.mem_univ _) h
  · rw [if_neg hA]
    refine Finset.sum_eq_zero fun c _ => ?_
    rw [if_neg]
    intro h
    exact hA ((hiff c).1 h).1

/-! ## The scalar scatter: one index word per update element, no window -/

section VecScatter

variable {N R w : Nat} (d : ScatterDims ⟨1, ![N]⟩ ⟨2, ![R, 1]⟩ ⟨1, ![R]⟩)
  (huw : d.updateWindowDims = []) (hiw : d.insertedWindowDims = [0]) (hsd : d.scatterDimsToOperandDims = [0])
  (hiv : d.indexVectorDim = 1)

include hsd hiv huw in
theorem vecScatter_start_zero (idx : IVec ⟨2, ![R, 1]⟩ w) (j : (⟨1, ![R]⟩ : Shape).Idx) :
    d.start j idx 0 = (idx (ix2 (j 0) 0)).toInt := by
  have hm : (0 : Fin 1) ∈ d.scatterDimsToOperandDims := by rw [hsd]; exact List.mem_singleton.mpr rfl
  have hus : d.uScatter = [0] := by
    show Shape.kept _ d.updateWindowDims = [0]
    rw [huw]; rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    rw [getElem_of_eq_singleton hus]
  | ⟨1, _⟩ =>
    unfold ScatterDims.siIdx
    rw [dif_pos (by rw [hiv])]
    apply Fin.ext
    show List.idxOf (0 : Fin 1) d.scatterDimsToOperandDims = 0
    rw [hsd]; simp

include hiw in
theorem vecScatter_window_zero (j : (⟨1, ![R]⟩ : Shape).Idx) : d.window j 0 = 0 := by
  have hsk : d.sKept = [] := by
    show Shape.kept _ d.insertedWindowDims = []
    rw [hiw]; rfl
  have hm : (0 : Fin 1) ∉ d.sKept := by rw [hsk]; simp
  unfold ScatterDims.window
  rw [dif_neg hm]

include huw hiw hsd hiv in
/-- The result index of update element `i` of a SCALAR scatter: it is `k` exactly when the element's index word, read
    signed, is `k`'s coordinate. -/
theorem vecScatter_resultIdx_eq_some_iff (idx : IVec ⟨2, ![R, 1]⟩ w) (i : Fin R) (k : (⟨1, ![N]⟩ : Shape).Idx) :
    d.resultIdx? (ix1 i) idx = some k ↔ (idx (ix2 i 0)).toInt = ((k 0).val : Int) := by
  have h00 : d.start (ix1 i) idx 0 = (idx (ix2 i 0)).toInt := vecScatter_start_zero d huw hsd hiv idx (ix1 i)
  have h10 := vecScatter_window_zero d hiw (ix1 i)
  have e0 : d.start (ix1 i) idx 0 + (d.window (ix1 i) 0 : Int) = (idx (ix2 i 0)).toInt := by
    rw [h00, h10]; simp
  have hk0 := (k 0).isLt
  unfold ScatterDims.resultIdx?
  constructor
  · intro h
    split at h
    · next hin =>
      have hf := Option.some.inj h
      have f0 := congrArg (fun f => (f 0).val) hf
      simp only at f0
      have i0 := hin 0
      rw [e0] at i0 f0
      omega
    · exact absurd h (by simp)
  · intro hr
    have hin : ∀ a, 0 ≤ d.start (ix1 i) idx a + (d.window (ix1 i) a : Int)
        ∧ d.start (ix1 i) idx a + (d.window (ix1 i) a : Int) < ((⟨1, ![N]⟩ : Shape).size a : Nat) := by
      intro a
      match a with
      | ⟨0, _⟩ =>
        show 0 ≤ d.start (ix1 i) idx 0 + (d.window (ix1 i) 0 : Int)
          ∧ d.start (ix1 i) idx 0 + (d.window (ix1 i) 0 : Int) < (N : Nat)
        rw [e0, hr]
        have : (k 0).val < N := hk0
        omega
    rw [dif_pos hin]
    congr 1
    funext a
    apply Fin.ext
    match a with
    | ⟨0, _⟩ =>
      show (d.start (ix1 i) idx 0 + (d.window (ix1 i) 0 : Int)).toNat = (k 0).val
      rw [e0, hr]; simp

include huw hiw hsd hiv in
/-- The accumulating SCALAR scatter at element `k0`: the operand's element plus the sum of the update elements whose
    index word read signed is `k0`. -/
theorem vecScatterAdd_apply (x : (⟨1, ![N]⟩ : Shape).Idx → EReal) (idx : IVec ⟨2, ![R, 1]⟩ w)
    (upd : (⟨1, ![R]⟩ : Shape).Idx → EReal) (k0 : Fin N) :
    Ideal.hostScatterAdd d x idx upd (ix1 k0)
      = x (ix1 k0) + ∑ n : Fin R, if (idx (ix2 n 0)).toInt = (k0.val : Int) then upd (ix1 n) else 0 := by
  unfold Ideal.hostScatterAdd
  congr 1
  rw [Finset.sum_filter, sum_idx1]
  refine Finset.sum_congr rfl fun n _ => ?_
  have hiff : (d.resultIdx? (ix1 n) idx = some (ix1 k0)) ↔ (idx (ix2 n 0)).toInt = (k0.val : Int) :=
    vecScatter_resultIdx_eq_some_iff d huw hiw hsd hiv idx n (ix1 k0)
  by_cases hA : (idx (ix2 n 0)).toInt = (k0.val : Int)
  · rw [if_pos hA, if_pos (hiff.2 hA)]
  · rw [if_neg hA, if_neg (fun h => hA (hiff.1 h))]

end VecScatter

end Idealize.ShloMosaic.ScatterSum
-- ==== Proof.LibRowGather.lean ====
/-
  A ROW gather read at an index. Operand [N, C]; start indices an [R, 1] column, one row number per result row; the
  row axis collapsed, slice sizes [1, C]: what `x[idx]` of a rank-2 array at a vector of row numbers lowers to.
  Result element (i, c) is the operand's element in column `c` of the row the i-th index word names, the word read
  signed and clamped into [0, N − 1] (a gather clamps every start index so that its slice fits).

  On the row axis the operand index is the clamped start alone (no batching axis, and a collapsed axis has no offset
  coordinate); on the column axis the start is zero (the start index map does not name it) and the offset coordinate
  is the result's column.
-/
import Idealize.ShloMosaic.PureOps.ShapeOps
import Idealize.ShloMosaic.Lib.ValueIdx

namespace Idealize.ShloMosaic.RowGather

open Idealize.ShloMosaic Idealize.ShloMosaic.ValueIdx

/-- The entries of a one-element list. -/
theorem getElem_of_eq_singleton {β : Type} {l : List β} {a : β} (h : l = [a]) (k : Nat) (hk : k < l.length) : l[k] = a := by
  subst h
  have hk0 : k = 0 := by simpa using hk
  subst hk0
  rfl

variable {N R C w : Nat} (d : GatherDims ⟨2, ![N, C]⟩ ⟨2, ![R, 1]⟩ ⟨2, ![R, C]⟩)
  (hod : d.offsetDims = [1]) (hcd : d.collapsedSliceDims = [0]) (hob : d.operandBatchingDims = [])
  (hsm : d.startIndexMap = [0]) (hiv : d.indexVectorDim = 1) (hss : d.sliceSizes = ![1, C])

include hod hsm hiv hss in
/-- On the row axis the slice starts at the row's index word, read signed and clamped. -/
theorem start_zero (idx : IVec ⟨2, ![R, 1]⟩ w) (j : (⟨2, ![R, C]⟩ : Shape).Idx) :
    d.start j idx 0 = min (idx (ix2 (j 0) 0)).toInt.toNat (N - 1) := by
  have hm : (0 : Fin 2) ∈ d.startIndexMap := by rw [hsm]; exact List.mem_singleton.mpr rfl
  have hbd : d.batchDims = [0] := by
    show Shape.kept _ d.offsetDims = [0]
    rw [hod]; rfl
  have hsz : (⟨2, ![N, C]⟩ : Shape).size 0 - d.sliceSizes 0 = N - 1 := by rw [hss]; rfl
  unfold GatherDims.start
  rw [dif_pos hm, hsz]
  refine congrArg (fun z => min (idx z).toInt.toNat (N - 1)) ?_
  funext b
  match b with
  | ⟨0, _⟩ =>
    unfold GatherDims.siIdx
    rw [dif_neg (by rw [hiv]; exact Nat.zero_ne_one)]
    unfold GatherDims.siCoord
    apply Fin.ext
    simp only [Fin.val_cast]
    rw [getElem_of_eq_singleton hbd]
  | ⟨1, _⟩ =>
    unfold GatherDims.siIdx
    rw [dif_pos (by rw [hiv])]
    apply Fin.ext
    show List.idxOf (0 : Fin 2) d.startIndexMap = 0
    rw [hsm]; simp

include hsm in
/-- On the column axis the slice starts at zero. -/
theorem start_one (idx : IVec ⟨2, ![R, 1]⟩ w) (j : (⟨2, ![R, C]⟩ : Shape).Idx) : d.start j idx 1 = 0 := by
  have hm : (1 : Fin 2) ∉ d.startIndexMap := by rw [hsm]; simp
  unfold GatherDims.start
  rw [dif_neg hm]

include hcd in
/-- The collapsed row axis has no offset coordinate. -/
theorem offCoord_zero (j : (⟨2, ![R, C]⟩ : Shape).Idx) : d.offCoord j 0 = 0 :=
  d.offCoord_eq_zero j 0 fun h => ((d.mem_sKept 0).mp h).1 (by rw [hcd]; exact List.mem_singleton.mpr rfl)

include hod hcd hob in
/-- The column axis' offset coordinate is the result's column. -/
theorem offCoord_one (j : (⟨2, ![R, C]⟩ : Shape).Idx) : d.offCoord j 1 = (j 1).val := by
  have hsk : d.sKept = [1] := by
    show Shape.kept _ (d.collapsedSliceDims ++ d.operandBatchingDims) = [1]
    rw [hcd, hob]; rfl
  have hm : (1 : Fin 2) ∈ d.sKept := by rw [hsk]; exact List.mem_singleton.mpr rfl
  unfold GatherDims.offCoord
  rw [dif_pos hm, getElem_of_eq_singleton hod]

include hod hcd hob hsm hiv hss in
/-- THE ROW GATHER READ AT (i, c): the operand at column `c` of the row the i-th index word names, read signed and
    clamped into [0, N − 1]. -/
theorem rowGather_apply {α : Type} (hN : 0 < N) (x : (⟨2, ![N, C]⟩ : Shape).Idx → α) (idx : IVec ⟨2, ![R, 1]⟩ w)
    (i : Fin R) (c : Fin C) :
    Host.gather d x idx (ix2 i c) = x (ix2 ⟨min (idx (ix2 i 0)).toInt.toNat (N - 1), by omega⟩ c) := by
  have hnb : ∀ a : Fin 2, a ∉ d.operandBatchingDims := fun a => by rw [hob]; exact List.not_mem_nil
  unfold Host.gather
  congr 1
  funext a
  apply Fin.ext
  match a with
  | ⟨0, _⟩ =>
    show d.start (ix2 i c) idx 0 + d.batchCoord (ix2 i c) 0 + d.offCoord (ix2 i c) 0 = min (idx (ix2 i 0)).toInt.toNat (N - 1)
    rw [start_zero d hod hsm hiv hss idx (ix2 i c), d.batchCoord_eq_zero _ _ (hnb 0), offCoord_zero d hcd (ix2 i c)]
    rfl
  | ⟨1, _⟩ =>
    show d.start (ix2 i c) idx 1 + d.batchCoord (ix2 i c) 1 + d.offCoord (ix2 i c) 1 = c.val
    rw [start_one d hsm idx (ix2 i c), d.batchCoord_eq_zero _ _ (hnb 1), offCoord_one d hod hcd hob (ix2 i c)]
    show 0 + 0 + c.val = c.val
    omega

end Idealize.ShloMosaic.RowGather
-- ==== Proof.RefValue.lean ====
/-
  The reference's result is the specification's function, index by index.

  Element (b, v, t) of the reshaped result is element (66 b + v, t) of the flat result. There the accumulating row
  scatter reads as the zero operand plus the sum over the 43 update rows whose index word names row 66 b + v; update
  row n is the gathered source row, the argument's flat row `col n`, which is row (0, col n) of the argument since
  col n < 66. Both index tables hold small non-negative words, so the wrap of a negative word leaves them as they
  are, the signed reading is the word's value, and the gather's clamp into range does nothing.
-/
import proofs.«177231_j80307298501385_1_alg».proof.Proof.RefRun
import proofs.«177231_j80307298501385_1_alg».proof.Proof.Spec
import proofs.«177231_j80307298501385_1_alg».proof.Proof.LibScatterSum
import proofs.«177231_j80307298501385_1_alg».proof.Proof.LibRowGather
import Idealize.ShloMosaic.Lib.Pipeline.Value
import Idealize.ShloMosaic.Lib.StableHlo.Predicate
import Idealize.ShloMosaic.PureOps.Ideal.Laws

open scoped BigOperators

noncomputable section

namespace Cert.ReferenceIdeal.RefValue

open Cert.ReferenceIdeal Cert.ReferenceIdeal.Gen Cert.ReferenceIdeal.RefRun Cert.Skeleton
open Idealize.ShloMosaic Idealize.ShloMosaic.ValueIdx Idealize.ShloMosaic.ScatterSum Idealize.ShloMosaic.RowGather
open Idealize.ShloMosaic.StableHlo.Predicate

/-- The target table's words are the edges' target joints … -/
theorem lit0_eq : ∀ n : Fin 43, lit0 n = BitVec.ofNat 32 (row n).val := by decide

/-- … and the source table's words the edges' source joints. -/
theorem lit1_eq : ∀ n : Fin 43, lit1 n = BitVec.ofNat 32 (col n).val := by decide

theorem rowWords_apply (n : Fin 43) : rowWords (ix1 n) = BitVec.ofNat 32 (row n).val := by
  have e : S43.rowMajor (ix1 n) = n := Fin.ext (Shape.rowMajor_val_one _)
  show lit0 (S43.rowMajor (ix1 n)) = _
  rw [e, lit0_eq]

theorem colWords_apply (n : Fin 43) : colWords (ix1 n) = BitVec.ofNat 32 (col n).val := by
  have e : S43.rowMajor (ix1 n) = n := Fin.ext (Shape.rowMajor_val_one _)
  show lit1 (S43.rowMajor (ix1 n)) = _
  rw [e, lit1_eq]

/-- A joint's word is not negative, so the wrap keeps it, and its signed reading is the joint's number. -/
theorem wrap_joint : ∀ k : Fin 22,
    (Scalar.select (IntOp.cmpi .slt (BitVec.ofNat 32 k.val) 0#32) (IntOp.addi (BitVec.ofNat 32 k.val) 844800#32)
      (BitVec.ofNat 32 k.val)).toInt = (k.val : Int) := by decide

/-- The index column of a table of joints' words reads, in row n, the n-th joint's number. -/
theorem idxCol_apply (C : IVec S43 32) (n : Fin 43) (k : Fin 22) (hC : C (ix1 n) = BitVec.ofNat 32 k.val) :
    (idxCol C (ix2 n (0 : Fin 1))).toInt = (k.val : Int) := by
  have e1 : (ix2 n (0 : Fin 1) : S43x1.Idx) = ixP n := funext fun a => by
    match a with
    | ⟨0, _⟩ => rfl
    | ⟨1, _⟩ => rfl
  have e2 : (Shape.Idx.ofFin n : S43.Idx) = ix1 n :=
    (eq_ix1 (Shape.Idx.ofFin n)).trans (congrArg ix1 (Shape.Idx.ofFin_zero n))
  unfold idxCol
  rw [e1, bcast_col1, e2]
  show (Scalar.select (IntOp.cmpi .slt (C (ix1 n)) (broadcastInDim S43 ![] bcast_S_S43 (constantI S_ 32 0#32) (ix1 n)))
    (IntOp.addi (C (ix1 n)) (broadcastInDim S43 ![] bcast_S_S43 (constantI S_ 32 844800#32) (ix1 n))) (C (ix1 n))).toInt = _
  rw [bcast_scalar _ (by decide), bcast_scalar _ (by decide), hC]
  exact wrap_joint k

/-- Update row n of the scatter is the argument's row (0, col n). -/
theorem gathered_apply (x : Sx.Idx → EReal) (n : Fin 43) (t : Fin 50) :
    gathered (F := Ideal) x (ix2 n t) = x (ix3 b0 (joint (col n)) t) := by
  unfold gathered
  rw [rowGather_apply gather_S844800x50_S43x1_S43x50_1_0_n_n_0_1_150 rfl rfl rfl rfl rfl rfl (by decide) (flat (F := Ideal) x)
    (idxCol colWords) n t]
  unfold flat
  refine shapeCast_apply _ _ _ (ix3 b0 (joint (col n)) t) ?_
  rw [Shape.rowMajor_val_two, Shape.rowMajor_val_three]
  show ((0 : ℕ) * 66 + (col n).val) * 50 + t.val
    = (min (idxCol colWords (ix2 n (0 : Fin 1))).toInt.toNat (844800 - 1)) * 50 + t.val
  rw [idxCol_apply colWords n (col n) (colWords_apply n), Int.toNat_natCast]
  have := (col n).isLt
  omega

/-- THE REFERENCE'S RESULT is the specification's function of the argument. -/
theorem result_eq (x : Sx.Idx → EReal) : result (F := Ideal) x = G x := by
  funext i
  obtain ⟨b, v, t, rfl⟩ : ∃ (b : Fin 12800) (v : Fin 66) (t : Fin 50), i = ix3 b v t := ⟨i 0, i 1, i 2, eq_ix3 i⟩
  show result (F := Ideal) x (ix3 b v t) = Gc x b v t
  have hr : 66 * b.val + v.val < 844800 := by
    have := b.isLt
    have := v.isLt
    omega
  unfold result
  rw [shapeCast_apply _ _ (ix3 b v t) (ix2 (⟨66 * b.val + v.val, hr⟩ : Fin 844800) t) (by
    rw [Shape.rowMajor_val_two, Shape.rowMajor_val_three]
    show (66 * b.val + v.val) * 50 + t.val = (b.val * 66 + v.val) * 50 + t.val
    omega)]
  unfold flatResult
  show Ideal.hostScatterAdd scatter_S844800x50_S43x1_S43x50_1_0_0_1
    (broadcastInDim S844800x50 ![] bcast_S_S844800x50 (constant (F := Ideal) S_ .f32 0x00000000#32)) (idxCol rowWords)
    (gathered (F := Ideal) x) (ix2 (⟨66 * b.val + v.val, hr⟩ : Fin 844800) t) = _
  rw [rowScatterAdd_apply scatter_S844800x50_S43x1_S43x50_1_0_0_1 rfl rfl rfl rfl, bcast_scalar _ (by decide)]
  show Ideal.ofBits .f32 0x00000000#32 + _ = _
  rw [Ideal.ofBits_zero_f32, zero_add]
  unfold Gc
  refine Finset.sum_congr rfl fun n _ => ?_
  rw [idxCol_apply rowWords n (row n) (rowWords_apply n), gathered_apply]
  have hiff : ((row n).val : Int) = ((66 * b.val + v.val : ℕ) : Int) ↔ (row n).val = 66 * b.val + v.val := Int.ofNat_inj
  by_cases h : (row n).val = 66 * b.val + v.val
  · rw [if_pos (hiff.2 h), if_pos h]
  · rw [if_neg (fun h' => h (hiff.1 h')), if_neg h]

end Cert.ReferenceIdeal.RefValue

end
-- ==== Proof.lean ====
/-
  A skeleton convolution against its sparse reference, equal over the extended reals.

  The argument is 12800 batch entries of 66 rows of 50 features; the skeleton has 22 joints and 43 directed edges (the
  self links and the bone links). The reference flattens the argument to 844800 rows, gathers the 43 source rows and
  adds them into a zero array at the 43 target rows: flat row r of the result is the sum, over the edges into r, of the
  source joint's row, and since every edge joins joints below 22 only rows (0, 0 … 21) of the result are non-zero and
  only rows (0, 0 … 21) of the argument are read. The kernel writes zeros over the whole result, ten blocks of 1280
  batch entries, and in the first block stores on rows (0, 0 … 21) the product of the 22 × 22 adjacency table, a
  constant of ones and zeros, with rows (0, 0 … 21) of the argument.

  Both are one function of the argument (Proof/Spec.lean): the table's row of joint v times the joints' features is the
  sum over the joints adjacent to v, which is the sum over the edges into v because no edge is listed twice. The law
  uses only that the sum is commutative and associative and that 0 · x = 0 and 1 · x = x, all true on the extended
  reals, so the precondition is never opened.

  The kernel's side is read off its run block by block (Proof/KernelBlock.lean, Proof/KernelValue.lean, the table in
  Proof/KernelTable.lean); the reference's run is read back operation by operation (Proof/RefRun.lean) and then at an
  index (Proof/RefValue.lean). The idealization rewrote nothing, so the kernel is its own idealization.
-/
import proofs.«177231_j80307298501385_1_alg».proof.Defs
import proofs.«177231_j80307298501385_1_alg».proof.Proof.Gen.Kernel
import proofs.«177231_j80307298501385_1_alg».proof.Proof.Gen.Kernel.Skeleton
import proofs.«177231_j80307298501385_1_alg».proof.Proof.Gen.Kernel.Launch
import proofs.«177231_j80307298501385_1_alg».proof.Proof.Gen.Kernel.Points
import proofs.«177231_j80307298501385_1_alg».proof.Proof.Gen.Kernel.Frame
import proofs.«177231_j80307298501385_1_alg».proof.Proof.Gen.KernelIdeal
import proofs.«177231_j80307298501385_1_alg».proof.Proof.Gen.KernelIdeal.Skeleton
import proofs.«177231_j80307298501385_1_alg».proof.Proof.Gen.KernelIdeal.Launch
import proofs.«177231_j80307298501385_1_alg».proof.Proof.Gen.KernelIdeal.Points
import proofs.«177231_j80307298501385_1_alg».proof.Proof.Gen.KernelIdeal.Frame
import proofs.«177231_j80307298501385_1_alg».proof.Proof.Gen.ReferenceIdeal
import proofs.«177231_j80307298501385_1_alg».proof.Proof.Gen.Pre_finite_inputs
import proofs.«177231_j80307298501385_1_alg».proof.Proof.KernelValue
import proofs.«177231_j80307298501385_1_alg».proof.Proof.RefValue
import Idealize.ShloMosaic.Adequacy
import Idealize.ShloMosaic.Init

noncomputable section

namespace Cert.Proof

open Idealize.ShloMosaic Idealize.SL.Sem

/-- The kernel as printed runs and leaves its argument alone. -/
theorem frame_kernel : Cert.frame_Kernel := fun m ρ _ => Cert.Kernel.Gen.frame m ρ

/-- So does it read at the exact instance. -/
theorem frame_kernelIdeal : Cert.frame_KernelIdeal := fun m ρ _ => Cert.KernelIdeal.Gen.frame m ρ

/-- The reference runs and leaves its argument alone: its run, with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the argument both programs end with the result at the specification's function of it:
    the kernel by its run read block by block, the reference by its run read at an index. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
